-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x64 : Shape := ⟨2, ![2097152, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S2097152x64 : S_.BroadcastsInDim S2097152x64 (![] : Fin 0 → Fin S2097152x64.rank)
  reducesTo_S2097152x64_S_d0_1 : S2097152x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S2097152x64 .f32) (main_arg1 : FVec F S64x64 .f32) (main_arg2 : FVec F S64 .f32) (main_arg3 : FVec F S32x64 .f32) (main_arg4 : FVec F S32 .f32) : IVec S_ 1 :=
  let main_v0 : FVec F S2097152x64 .f32 := Host.absf main_arg0
  let main_cst : FVec F S_ .f32 := constant S_ .f32 0x7F800000#32
  let main_v1 : FVec F S2097152x64 .f32 := broadcastInDim S2097152x64 ![] bcast_S_S2097152x64 main_cst
  let main_v2 : IVec S2097152x64 1 := cmpf .olt main_v0 main_v1
  let main_c : IVec S_ 1 := constantI S_ 1 1#1
  let main_v3 : IVec S_ 1 := (fun x v => Host.reduce IntOp.andi x v reducesTo_S2097152x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S2097152x64 : Shape := ⟨2, ![2097152, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S64x32 : Shape := ⟨2, ![64, 32]⟩
abbrev S1x32 : Shape := ⟨2, ![1, 32]⟩
abbrev S2097152x32 : Shape := ⟨2, ![2097152, 32]⟩
abbrev S16384x64 : Shape := ⟨2, ![16384, 64]⟩
abbrev S16384x32 : Shape := ⟨2, ![16384, 32]⟩

abbrev nBuf : Space → Nat
  | .hbm => 12
  | .vmem => 8
  | .smem => 0
  | _ => 0

abbrev bufTy : (tb : Table) → Fin (tcTables nBuf tb) → BufTy
  | .hbm, ⟨0, _⟩ => ⟨S2097152x64, .f32⟩
  | .hbm, ⟨1, _⟩ => ⟨S64x64, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S2097152x64, .bf16⟩
  | .hbm, ⟨6, _⟩ => ⟨S64x64, .f32⟩
  | .hbm, ⟨7, _⟩ => ⟨S1x64, .f32⟩
  | .hbm, ⟨8, _⟩ => ⟨S64x32, .f32⟩
  | .hbm, ⟨9, _⟩ => ⟨S1x32, .f32⟩
  | .hbm, ⟨10, _⟩ => ⟨S2097152x32, .bf16⟩
  | .hbm, ⟨11, _⟩ => ⟨S2097152x32, .f32⟩
  | .local _ .vmem, ⟨0, _⟩ => ⟨S16384x64, .bf16⟩
  | .local _ .vmem, ⟨1, _⟩ => ⟨S16384x64, .bf16⟩
  | .local _ .vmem, ⟨2, _⟩ => ⟨S64x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S16384x32, .bf16⟩
  | .local _ .vmem, ⟨7, _⟩ => ⟨S16384x32, .bf16⟩
  | _, _ => ⟨S2097152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S64x64_S64x64_1_0 : S64x64.Transposes [1, 0] S64x64
  shapeCasts_S64_S1x64 : S64.ShapeCasts S1x64
  transposes_S32x64_S64x32_1_0 : S32x64.Transposes [1, 0] S64x32
  shapeCasts_S32_S1x32 : S32.ShapeCasts S1x32
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  inb_S16384x32_S16384x32_0_0 : ∀ a, (![0, 0] : Fin 2 → Nat) a + S16384x32.size a ≤ S16384x32.size a
  h_S16384x32 : 0 < S16384x32.numel
  packedbf16_S16384x32_S16384x32_0_0 : (Rect.unit (s := S16384x32) ![0, 0] S16384x32.size inb_S16384x32_S16384x32_0_0).PackedRows (EltTy.packing .bf16)
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S2097152x64.size a
  hwx0_0 : ∀ i : grid0.Coords, EltTy.bits .bf16 = 32 ∨ (Rect.block (s := S2097152x64) S16384x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x32.size a ≤ S2097152x32.size a
  hwx0_5 : ∀ i : grid0.Coords, EltTy.bits .bf16 = 32 ∨ (Rect.block (s := S2097152x32) S16384x32.size (cc0_transform_5 i) (hinb0_5 i)).WholeWords (EltTy.packing .bf16)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf

abbrev win0_0 : Pipeline.Window sig grid0 :=
  Pipeline.Window.ofSpec (Memref.whole main_v0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16384x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x64 : Shape := ⟨2, ![2097152, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S_ : Shape := ⟨0, ![]⟩
abbrev S64x32 : Shape := ⟨2, ![64, 32]⟩
abbrev S2097152x32 : Shape := ⟨2, ![2097152, 32]⟩
abbrev S1x32 : Shape := ⟨2, ![1, 32]⟩

abbrev nBuf : Space → Nat
  | .hbm => 22
  | .vmem => 0
  | .smem => 0
  | _ => 0

abbrev bufTy : (tb : Table) → Fin (tcTables nBuf tb) → BufTy
  | .hbm, ⟨0, _⟩ => ⟨S2097152x64, .f32⟩
  | .hbm, ⟨1, _⟩ => ⟨S64x64, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S64x64, .f32⟩
  | .hbm, ⟨6, _⟩ => ⟨S2097152x64, .f32⟩
  | .hbm, ⟨7, _⟩ => ⟨S1x64, .f32⟩
  | .hbm, ⟨8, _⟩ => ⟨S2097152x64, .f32⟩
  | .hbm, ⟨9, _⟩ => ⟨S2097152x64, .f32⟩
  | .hbm, ⟨10, _⟩ => ⟨S_, .f32⟩
  | .hbm, ⟨11, _⟩ => ⟨S2097152x64, .f32⟩
  | .hbm, ⟨12, _⟩ => ⟨S2097152x64, .i1⟩
  | .hbm, ⟨13, _⟩ => ⟨S_, .f32⟩
  | .hbm, ⟨14, _⟩ => ⟨S2097152x64, .f32⟩
  | .hbm, ⟨15, _⟩ => ⟨S2097152x64, .f32⟩
  | .hbm, ⟨16, _⟩ => ⟨S2097152x64, .f32⟩
  | .hbm, ⟨17, _⟩ => ⟨S64x32, .f32⟩
  | .hbm, ⟨18, _⟩ => ⟨S2097152x32, .f32⟩
  | .hbm, ⟨19, _⟩ => ⟨S1x32, .f32⟩
  | .hbm, ⟨20, _⟩ => ⟨S2097152x32, .f32⟩
  | .hbm, ⟨21, _⟩ => ⟨S2097152x32, .f32⟩
  | _, _ => ⟨S2097152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  transposes_S32x64_S64x32_1_0 : S32x64.Transposes [1, 0] S64x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  dot_S2097152x64_S64x64_S2097152x64_1_0_0_1_n_n_wf : DotDims.WF S2097152x64 S64x64 S2097152x64 [1] [0] [0] [1] [] []
  dot_S2097152x64_S64x32_S2097152x32_1_0_0_1_n_n_wf : DotDims.WF S2097152x64 S64x32 S2097152x32 [1] [0] [0] [1] [] []

variable [Facts₀]

def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x32_S2097152x32_1_0_0_1_n_n : DotDims S2097152x64 S64x32 S2097152x32 where
  lhsContracting := [1]
  rhsContracting := [0]
  lhsNonContracting := [0]
  rhsNonContracting := [1]
  lhsBatch := []
  rhsBatch := []
  wf := dot_S2097152x64_S64x32_S2097152x32_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Spec.lean ====
/-
  The function both programs compute, on the extended reals, row by row.

  For an input matrix x of n rows and 64 columns, a stored first-layer matrix W1 [64, 64] with bias b1 [64], and a stored
  second-layer matrix W2 [32, 64] with bias b2 [32]:

    s[p, j]   = (Σ k, x[p, k] · W1[j, k]) + b1[j]                      the first affine layer
    a[p, j]   = s[p, j] if s[p, j] ≥ 0, else 0.01f · s[p, j]            the leaky rectifier, its slope the f32 literal 0x3C23D70A
    out[p, q] = (Σ k, a[p, k] · W2[q, k]) + b2[q]                      the second affine layer

  Row p of the result depends on row p of x only, so the result over a block of rows is the block of the result.
-/
import Idealize.ShloMosaic.PureOps.Ideal
import Idealize.ShloMosaic.Lib.ValueIdx

noncomputable section

open scoped BigOperators

namespace Cert.Mlp

open Idealize.ShloMosaic Idealize.ShloMosaic.ValueIdx

/-- The leaky rectifier on an extended real: v where v ≥ 0, the slope literal times v elsewhere. -/
def leaky (v : EReal) : EReal :=
  Scalar.select (Ideal.cmp .oge v (Ideal.ofBits .f32 0x00000000#32)) v (Ideal.ofBits .f32 0x3C23D70A#32 * v)

/-- The first affine layer at row p, hidden unit j. -/
def hidden {n : Nat} (x : (⟨2, ![n, 64]⟩ : Shape).Idx → EReal) (W1 : (⟨2, ![64, 64]⟩ : Shape).Idx → EReal)
    (b1 : (⟨1, ![64]⟩ : Shape).Idx → EReal) (p : Fin n) (j : Fin 64) : EReal :=
  (∑ k : Fin 64, x (ix2 p k) * W1 (ix2 j k)) + b1 (ix1 j)

/-- The network's result at row p, output unit q. -/
def outAt {n : Nat} (x : (⟨2, ![n, 64]⟩ : Shape).Idx → EReal) (W1 : (⟨2, ![64, 64]⟩ : Shape).Idx → EReal)
    (b1 : (⟨1, ![64]⟩ : Shape).Idx → EReal) (W2 : (⟨2, ![32, 64]⟩ : Shape).Idx → EReal)
    (b2 : (⟨1, ![32]⟩ : Shape).Idx → EReal) (p : Fin n) (q : Fin 32) : EReal :=
  (∑ k : Fin 64, leaky (hidden x W1 b1 p k) * W2 (ix2 q k)) + b2 (ix1 q)

/-- The whole result array. -/
def out {n : Nat} (x : (⟨2, ![n, 64]⟩ : Shape).Idx → EReal) (W1 : (⟨2, ![64, 64]⟩ : Shape).Idx → EReal)
    (b1 : (⟨1, ![64]⟩ : Shape).Idx → EReal) (W2 : (⟨2, ![32, 64]⟩ : Shape).Idx → EReal)
    (b2 : (⟨1, ![32]⟩ : Shape).Idx → EReal) : (⟨2, ![n, 32]⟩ : Shape).Idx → EReal :=
  fun i => outAt x W1 b1 W2 b2 (i 0) (i 1)

/-- Two inputs that agree on a row give the same result on that row. -/
theorem outAt_congr_row {n n' : Nat} (x : (⟨2, ![n, 64]⟩ : Shape).Idx → EReal) (x' : (⟨2, ![n', 64]⟩ : Shape).Idx → EReal)
    (W1 : (⟨2, ![64, 64]⟩ : Shape).Idx → EReal) (b1 : (⟨1, ![64]⟩ : Shape).Idx → EReal)
    (W2 : (⟨2, ![32, 64]⟩ : Shape).Idx → EReal) (b2 : (⟨1, ![32]⟩ : Shape).Idx → EReal)
    (p : Fin n) (p' : Fin n') (h : ∀ k : Fin 64, x (ix2 p k) = x' (ix2 p' k)) (q : Fin 32) :
    outAt x W1 b1 W2 b2 p q = outAt x' W1 b1 W2 b2 p' q := by
  unfold outAt hidden
  simp only [h]

end Cert.Mlp

end
-- ==== Proof.Payload.lean ====
/-
  What the kernel body stores, read at an index, on the extended reals.

  The body loads a block x of 16384 rows (bf16, widened: the identity on extended reals), the transposed first-layer
  matrix W1t [64, 64], the bias row c1 [1, 64], the transposed second-layer matrix W2t [64, 32] and the bias row
  c2 [1, 32], and stores

    (Σ k, a[p, k] · W2t[k, q]) + c2[0, q],   a[p, k] = leaky ((Σ k', x[p, k'] · W1t[k', k]) + c1[0, k])

  narrowed to bf16 (again the identity). Each matrix product is the vector unit's product into a zero accumulator, a plain
  M×K by K×N product, so at (p, q) it is the sum over the contracted coordinate; each bias is a one-row matrix broadcast
  down the rows.
-/
import proofs.«112732_g54271206752818_cont_9to1_m_1050_22_alg».proof.Proof.Gen.KernelIdeal.Skeleton
import proofs.«112732_g54271206752818_cont_9to1_m_1050_22_alg».proof.Proof.LibPlainDot
import proofs.«112732_g54271206752818_cont_9to1_m_1050_22_alg».proof.Proof.LibRowBias
import proofs.«112732_g54271206752818_cont_9to1_m_1050_22_alg».proof.Proof.Spec
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The first product's dimension numbers are those of a plain 16384×64 by 64×64 product. -/
theorem dims1 : dot_S16384x64_S64x64_S16384x64_1_0_0_1_n_n = DotDims.plain 16384 64 64 := rfl
/-- The second product's are those of a plain 16384×64 by 64×32 product. -/
theorem dims2 : dot_S16384x64_S64x32_S16384x32_1_0_0_1_n_n = DotDims.plain 16384 64 32 := rfl

/-- The first affine layer over a block: the product with the transposed matrix plus the bias row broadcast down. -/
def pre (x : FVec Ideal S16384x64 .bf16) (w1t : FVec Ideal S64x64 .f32) (c1 : FVec Ideal S1x64 .f32) : FVec Ideal S16384x64 .f32 :=
  addf (matmul (DotDims.plain 16384 64 64) none (extf .f32 x bitsLt_bf16_f32) w1t (constant S16384x64 .f32 0x00000000#32))
    (broadcastTo S16384x64 c1 broadcasts_S1x64_S16384x64)

/-- At row p and hidden unit k it is the sum over the input coordinate plus the bias entry. -/
theorem pre_apply (x : FVec Ideal S16384x64 .bf16) (w1t : FVec Ideal S64x64 .f32) (c1 : FVec Ideal S1x64 .f32) (p : Fin 16384) (k : Fin 64) :
    pre x w1t c1 (ix2 p k) = (∑ k' : Fin 64, x (ix2 p k') * w1t (ix2 k' k)) + c1 (ix2 (0 : Fin 1) k) :=
  congrArg₂ (· + ·) (Cert.PlainDot.matmul_zero_apply none (extf .f32 x bitsLt_bf16_f32) w1t p k)
    (Cert.RowBias.rows_apply c1 broadcasts_S1x64_S16384x64 p k)

/-- The hidden activation the body feeds the second product, at row p and hidden unit k. -/
def act (x : FVec Ideal S16384x64 .bf16) (w1t : FVec Ideal S64x64 .f32) (c1 : FVec Ideal S1x64 .f32) (p : Fin 16384) (k : Fin 64) : EReal :=
  Cert.Mlp.leaky ((∑ k' : Fin 64, x (ix2 p k') * w1t (ix2 k' k)) + c1 (ix2 (0 : Fin 1) k))

/-- The rectifier as the body spells it — a comparison with the zero splat selecting between the value and the slope
    splat times it — at an index. -/
theorem rect_apply (h : FVec Ideal S16384x64 .f32) (i : S16384x64.Idx) :
    select (cmpf .oge h (broadcast S16384x64 (FloatOps.ofBits .f32 0x00000000#32))) h
      (mulf (broadcast S16384x64 (FloatOps.ofBits .f32 0x3C23D70A#32)) h) i = Cert.Mlp.leaky (h i) := rfl

/-- The stored payload at (p, q). -/
theorem pay_apply (x : Vec Ideal S16384x64 .bf16) (w1t : Vec Ideal S64x64 .f32) (c1 : Vec Ideal S1x64 .f32)
    (w2t : Vec Ideal S64x32 .f32) (c2 : Vec Ideal S1x32 .f32) (p : Fin 16384) (q : Fin 32) :
    k0_pay1 (F := Ideal) x w1t c1 w2t c2 (ix2 p q)
      = (∑ k : Fin 64, act x w1t c1 p k * w2t (ix2 k q)) + c2 (ix2 (0 : Fin 1) q) := by
  unfold k0_pay1
  simp only [shapeCast_self]
  rw [dims1, dims2]
  refine (congrArg₂ (· + ·) (Cert.PlainDot.matmul_zero_apply none _ w2t p q)
    (Cert.RowBias.rows_apply c2 broadcasts_S1x32_S16384x32 p q)).trans ?_
  refine congrArg (· + c2 (ix2 (0 : Fin 1) q)) (Finset.sum_congr rfl fun k _ => congrArg (· * w2t (ix2 k q)) ?_)
  refine (rect_apply (pre x w1t c1) (ix2 p k)).trans ?_
  unfold act
  rw [pre_apply]

end Cert.KernelIdeal.Body

end
-- ==== Proof.KernelValue.lean ====
/-
  The kernel's result array, on the extended reals, is the specification of the argument arrays.

  Before the region the host narrows x to bf16 (the identity), transposes the two stored matrices and lays the two
  bias vectors out as one-row matrices. The grid has 128 points; point t reads rows 16384·t … 16384·t + 16383 of x and
  the four small arrays whole, and writes back the same rows of the [2097152, 32] output. What it writes at (p, q) is
  the body's payload of those blocks, which — the transposes undone, the bias rows read as vectors — is the
  specification at row 16384·t + p. The 128 row blocks tile the output, so the array after the run is the specification
  everywhere; the host's widening back to f32 after the region is again the identity.
-/
import proofs.«112732_g54271206752818_cont_9to1_m_1050_22_alg».proof.Proof.Gen.KernelIdeal.Frame
import proofs.«112732_g54271206752818_cont_9to1_m_1050_22_alg».proof.Proof.Payload
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## The arrays the region finds -/

/-- x narrowed to bf16. -/
theorem V_v0 (c : Dev nD) : V m c main_v0 = truncf (F := Ideal) .bf16 (m ((c : Thread nD τ).loc main_arg0)) bitsLt_bf16_f32 := by
  show StableHlo.after hostOps0 (fun b => m (c, b)) (Proc.devRef .tc main_v0) = _
  after_results <;> rfl

/-- The first-layer matrix transposed. -/
theorem V_v1 (c : Dev nD) : V m c main_v1 = transpose S64x64 [1, 0] (m ((c : Thread nD τ).loc main_arg1)) transposes_S64x64_S64x64_1_0 := by
  show StableHlo.after hostOps0 (fun b => m (c, b)) (Proc.devRef .tc main_v1) = _
  after_results <;> rfl

/-- The first bias as a one-row matrix. -/
theorem V_v2 (c : Dev nD) : V m c main_v2 = shapeCast S1x64 (m ((c : Thread nD τ).loc main_arg2)) shapeCasts_S64_S1x64 := by
  show StableHlo.after hostOps0 (fun b => m (c, b)) (Proc.devRef .tc main_v2) = _
  after_results <;> rfl

/-- The second-layer matrix transposed. -/
theorem V_v3 (c : Dev nD) : V m c main_v3 = transpose S64x32 [1, 0] (m ((c : Thread nD τ).loc main_arg3)) transposes_S32x64_S64x32_1_0 := by
  show StableHlo.after hostOps0 (fun b => m (c, b)) (Proc.devRef .tc main_v3) = _
  after_results <;> rfl

/-- The second bias as a one-row matrix. -/
theorem V_v4 (c : Dev nD) : V m c main_v4 = shapeCast S1x32 (m ((c : Thread nD τ).loc main_arg4)) shapeCasts_S32_S1x32 := by
  show StableHlo.after hostOps0 (fun b => m (c, b)) (Proc.devRef .tc main_v4) = _
  after_results <;> rfl

/-! ## The blocks at a point -/

theorem hz : (![0, 0] : Fin 2 → Nat) = fun _ => 0 := funext fun a => by fin_cases a <;> rfl

/-- The printed index maps over the grid: x and the output move one block of rows per point; the four small arrays stay
    at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 16384·t + p of the array. -/
def row (t : Fin cfg0.N) (p : Fin 16384) : Fin 2097152 :=
  ⟨t.val * 16384 + p.val, by
    have ht := t.isLt
    have hN : cfg0.N = 128 := N_0
    have hp := p.isLt
    omega⟩

/-- Point t's block of x. -/
theorem xblk_apply (c : Dev nD) (t : Fin cfg0.N) (p : Fin 16384) (k : Fin 64) :
    iblk m c 0 t (ix2 p k) = m ((c : Thread nD τ).loc main_arg0) (ix2 (row t p) k) := by
  obtain ⟨e0, e1, -⟩ := idx_facts t
  show V m c main_v0 (((cfg0.win 0).blk t).view.emb (ix2 p k)) = _
  rw [V_v0]
  show m ((c : Thread nD τ).loc main_arg0) (((cfg0.win 0).blk t).view.emb (ix2 p k)) = _
  refine congrArg _ (funext fun a => Fin.ext ?_)
  match a with
  | ⟨0, _⟩ => show win0_0.index t (0 : Fin 2) * 16384 + 1 * p.val = t.val * 16384 + p.val; omega
  | ⟨1, _⟩ => show win0_0.index t (1 : Fin 2) * 64 + 1 * k.val = k.val; omega

/-- The transposed first-layer matrix, whole at every point: entry (k', k) is W1[k, k']. -/
theorem w1blk_apply (c : Dev nD) (t : Fin cfg0.N) (k' k : Fin 64) :
    iblk m c 1 t (ix2 k' k) = m ((c : Thread nD τ).loc main_arg1) (ix2 k k') := by
  obtain ⟨-, -, e0, e1, -⟩ := idx_facts t
  show V m c main_v1 (((cfg0.win 1).blk t).view.emb (ix2 k' k)) = _
  have e : ((cfg0.win 1).blk t).view.emb (ix2 k' k) = ix2 k' k := funext fun a => Fin.ext (by
    match a with
    | ⟨0, _⟩ => show win0_1.index t (0 : Fin 2) * 64 + 1 * k'.val = k'.val; omega
    | ⟨1, _⟩ => show win0_1.index t (1 : Fin 2) * 64 + 1 * k.val = k.val; omega)
  rw [e, V_v1]
  exact transpose_ix2_apply _ _ k' k

/-- The first bias row, whole at every point: entry (0, k) is b1[k]. -/
theorem c1blk_apply (c : Dev nD) (t : Fin cfg0.N) (k : Fin 64) :
    iblk m c 2 t (ix2 (0 : Fin 1) k) = m ((c : Thread nD τ).loc main_arg2) (ix1 k) := by
  obtain ⟨-, -, -, -, e0, e1, -⟩ := idx_facts t
  show V m c main_v2 (((cfg0.win 2).blk t).view.emb (ix2 (0 : Fin 1) k)) = _
  have e : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 64 + 1 * k.val = k.val; omega)
  rw [e, V_v2]
  exact Cert.RowBias.ofVec_apply _ _ k

/-- The transposed second-layer matrix, whole at every point: entry (k, q) is W2[q, k]. -/
theorem w2blk_apply (c : Dev nD) (t : Fin cfg0.N) (k : Fin 64) (q : Fin 32) :
    iblk m c 3 t (ix2 k q) = m ((c : Thread nD τ).loc main_arg3) (ix2 q k) := by
  obtain ⟨-, -, -, -, -, -, e0, e1, -⟩ := idx_facts t
  show V m c main_v3 (((cfg0.win 3).blk t).view.emb (ix2 k q)) = _
  have e : ((cfg0.win 3).blk t).view.emb (ix2 k q) = ix2 k q := funext fun a => Fin.ext (by
    match a with
    | ⟨0, _⟩ => show win0_3.index t (0 : Fin 2) * 64 + 1 * k.val = k.val; omega
    | ⟨1, _⟩ => show win0_3.index t (1 : Fin 2) * 32 + 1 * q.val = q.val; omega)
  rw [e, V_v3]
  exact transpose_ix2_apply _ _ k q

/-- The second bias row, whole at every point: entry (0, q) is b2[q]. -/
theorem c2blk_apply (c : Dev nD) (t : Fin cfg0.N) (q : Fin 32) :
    iblk m c 4 t (ix2 (0 : Fin 1) q) = m ((c : Thread nD τ).loc main_arg4) (ix1 q) := by
  obtain ⟨-, -, -, -, -, -, -, -, e0, e1, -⟩ := idx_facts t
  show V m c main_v4 (((cfg0.win 4).blk t).view.emb (ix2 (0 : Fin 1) q)) = _
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 32 + 1 * q.val = q.val; omega)
  rw [e, V_v4]
  exact Cert.RowBias.ofVec_apply _ _ q

/-! ## What a point writes back -/

/-- The specification of the argument arrays as launched, as the contents of the region's output array. -/
abbrev spec (c : Dev nD) : Buf (Elt Ideal) ((c : Thread nD τ).loc main_v5) :=
  Cert.Mlp.out (m ((c : Thread nD τ).loc main_arg0)) (m ((c : Thread nD τ).loc main_arg1)) (m ((c : Thread nD τ).loc main_arg2))
    (m ((c : Thread nD τ).loc main_arg3)) (m ((c : Thread nD τ).loc main_arg4))

/-- Point t writes back its block of the specification. -/
theorem flushed_eq (c : Dev nD) (t : Fin cfg0.N) :
    (dats m 0 c).flushed 5 t = ((cfg0.win 5).blk t).view.read (Elt Ideal) (spec m c) := by
  show (cfg0.win 5).cut (grid0.coords t) ((dats m 0 c).after 5 t) = _
  rw [after0_5]
  unfold out0_5
  rw [View.canon_unit_zero hz]
  simp only [View.ld_unit_zero (S := S16384x64) hz, View.ld_unit_zero (S := S64x64) hz, View.ld_unit_zero (S := S1x64) hz,
    View.ld_unit_zero (S := S64x32) hz, View.ld_unit_zero (S := S1x32) hz]
  funext j
  obtain ⟨p, q, rfl⟩ : ∃ (p : Fin 16384) (q : Fin 32), j = ix2 p q := ⟨j 0, j 1, eq_ix2 j⟩
  obtain ⟨-, -, -, -, -, -, -, -, -, -, e0, e1⟩ := idx_facts t
  show k0_pay1 (F := Ideal) (iblk m c 0 t) (iblk m c 1 t) (iblk m c 2 t) (iblk m c 3 t) (iblk m c 4 t) (ix2 p q)
    = spec m c (((cfg0.win 5).blk t).view.emb (ix2 p q))
  refine (Cert.KernelIdeal.Body.pay_apply (iblk m c 0 t) (iblk m c 1 t) (iblk m c 2 t) (iblk m c 3 t) (iblk m c 4 t) p q).trans ?_
  have e : ((cfg0.win 5).blk t).view.emb (ix2 p q) = ix2 (row t p) q := funext fun a => Fin.ext (by
    match a with
    | ⟨0, _⟩ => show win0_5.index t (0 : Fin 2) * 16384 + 1 * p.val = t.val * 16384 + p.val; omega
    | ⟨1, _⟩ => show win0_5.index t (1 : Fin 2) * 32 + 1 * q.val = q.val; omega)
  rw [e]
  show _ = Cert.Mlp.outAt _ _ _ _ _ (row t p) q
  unfold Cert.Mlp.outAt Cert.Mlp.hidden Cert.KernelIdeal.Body.act
  simp only [xblk_apply, w1blk_apply, c1blk_apply, w2blk_apply, c2blk_apply]

/-! ## The array after the run -/

/-- An index of the output array is in point t's block iff each coordinate is in the block's range on its axis. -/
theorem mem_blk (t : Fin cfg0.N) (i : S2097152x32.Idx) :
    i ∈ ((cfg0.win 5).blk t).view.set ↔ ∀ a : Fin 2, win0_5.index t a * S16384x32.size a ≤ (i a).val ∧ (i a).val < win0_5.index t a * S16384x32.size a + S16384x32.size a := by
  show i ∈ ((View.whole main_v5).slice (win0_5.rect t)).set ↔ _
  rw [View.set_slice_whole, Rect.mem_set_unit]
  exact Iff.rfl

/-- Row r of the output lies in the block of point r / 16384: the row blocks tile the array. -/
theorem cover (i : S2097152x32.Idx) : ∃ t : Fin cfg0.N, (cfg0.win 5).flush t = true ∧ i ∈ ((cfg0.win 5).blk t).view.set := by
  have hi0 : (i 0).val < 2097152 := (i 0).isLt
  have hi1 : (i 1).val < 32 := (i 1).isLt
  have hN : cfg0.N = 128 := N_0
  have ht : (i 0).val / 16384 < cfg0.N := by rw [hN]; omega
  obtain ⟨-, -, -, -, -, -, -, -, -, -, e0, e1⟩ := idx_facts ⟨(i 0).val / 16384, ht⟩
  refine ⟨⟨(i 0).val / 16384, ht⟩, flush0_5 _, ?_⟩
  rw [mem_blk]
  intro a
  match a with
  | ⟨0, _⟩ =>
    show win0_5.index ⟨(i 0).val / 16384, ht⟩ (0 : Fin 2) * 16384 ≤ (i 0).val ∧ (i 0).val < win0_5.index ⟨(i 0).val / 16384, ht⟩ (0 : Fin 2) * 16384 + 16384
    rw [e0]
    show (i 0).val / 16384 * 16384 ≤ (i 0).val ∧ (i 0).val < (i 0).val / 16384 * 16384 + 16384
    omega
  | ⟨1, _⟩ =>
    show win0_5.index ⟨(i 0).val / 16384, ht⟩ (1 : Fin 2) * 32 ≤ (i 1).val ∧ (i 1).val < win0_5.index ⟨(i 0).val / 16384, ht⟩ (1 : Fin 2) * 32 + 32
    rw [e1]
    omega

/-- The region's output array after the run is the specification. -/
theorem final (c : Dev nD) : (dats m 0 c).arrAt 5 cfg0.N = spec m c :=
  (dats m 0 c).arrAt_eq_of_cover 5 (spec m c) (fun t _ => flushed_eq m c t) cover

/-- The program's result: the host widens the region's output back to f32, the identity on extended reals. -/
theorem tail_eq (c : Dev nD) :
    Pipeline.afterTail₀ cfgs (dats m) 0 (V0 m) [hostOps1] c main_v6
      = Cert.Mlp.out (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5) = spec m c :=
    (Pipeline.withArrays_arr spec0 launch0.win.arr_inj c _ _ 5).trans (final m c)
  refine (congrArg (fun z => extf (F := Ideal) .f32 z bitsLt_bf16_f32) e).trans ?_
  rfl

/-! ## The run -/

/-- Every weakly fair execution of the program terminates with its result array at the specification of the argument
    arrays and the argument arrays unchanged. -/
theorem run : θ_run defs (onTc (τ := τ) (main (F := Ideal))) ⟨m, fun _ => 0, ρ⟩ fun r => ∀ c : Dev nD,
      r.2.mem ((c.tc : Thread nD τ).loc main_v6)
        = Cert.Mlp.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefValue.lean ====
/-
  The reference's result is the specification, index by index.

  Its host program transposes the stored matrices, multiplies (a dot_general: at an index the sum over the contracted
  coordinate), adds each bias broadcast from a vector to one row and then down the rows, and selects between the hidden
  value and the slope literal times it by the comparison with zero. Read one operation at a time at (p, q) this is the
  specification's formula, the transposes turning W1t[k, j] into W1[j, k] and W2t[k, q] into W2[q, k].
-/
import proofs.«112732_g54271206752818_cont_9to1_m_1050_22_alg».proof.Proof.Gen.ReferenceIdeal.Read
import proofs.«112732_g54271206752818_cont_9to1_m_1050_22_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S2097152x64, .f32⟩ : BufTy).Contents (Elt Ideal)) (x1 : (⟨S64x64, .f32⟩ : BufTy).Contents (Elt Ideal))
  (x2 : (⟨S64, .f32⟩ : BufTy).Contents (Elt Ideal)) (x3 : (⟨S32x64, .f32⟩ : BufTy).Contents (Elt Ideal))
  (x4 : (⟨S32, .f32⟩ : BufTy).Contents (Elt Ideal))

/-- The first affine layer, as the reference computes it, at row p and hidden unit j. -/
theorem hidden_eq (p : Fin 2097152) (j : Fin 64) :
    val_main_v4 (F := Ideal) x0 x1 x2 (ix2 p j) = Cert.Mlp.hidden x0 x1 x2 p j := by
  rw [val_main_v4_apply, val_main_v1_apply, val_main_v3_apply, val_main_v2_apply]
  unfold Cert.Mlp.hidden
  have e1 : ∀ k : Fin 64, lidx_main_v1 (ix2 p j) k = ix2 p k := fun k => funext fun a => Fin.ext (by
    match a with
    | ⟨0, _⟩ => rfl
    | ⟨1, _⟩ => rfl)
  have e2 : ∀ k : Fin 64, idx_main_v0 (ridx_main_v1 (ix2 p j) k) = ix2 j k := fun k => funext fun a => Fin.ext (by
    match a with
    | ⟨0, _⟩ => rfl
    | ⟨1, _⟩ => rfl)
  have e3 : idx_main_v2 (idx_main_v3 (ix2 p j)) = ix1 j := funext fun a => Fin.ext (by
    match a with
    | ⟨0, _⟩ => rfl)
  simp only [val_main_v0_apply, e1, e2, e3]
  rfl

/-- The rectified hidden layer. -/
theorem act_eq (p : Fin 2097152) (j : Fin 64) :
    val_main_v9 (F := Ideal) x0 x1 x2 (ix2 p j) = Cert.Mlp.leaky (Cert.Mlp.hidden x0 x1 x2 p j) := by
  rw [val_main_v9_apply, val_main_v6_apply, val_main_v8_apply, val_main_v5_apply, val_main_v7_apply, hidden_eq]
  rfl

/-- The reference's result array is the specification's. -/
theorem result_eq : val_main_v14 (F := Ideal) x0 x1 x2 x3 x4 = Cert.Mlp.out x0 x1 x2 x3 x4 := by
  funext i
  obtain ⟨p, q, rfl⟩ : ∃ (p : Fin 2097152) (q : Fin 32), i = ix2 p q := ⟨i 0, i 1, eq_ix2 i⟩
  rw [val_main_v14_apply, val_main_v11_apply, val_main_v13_apply, val_main_v12_apply]
  show _ = Cert.Mlp.outAt x0 x1 x2 x3 x4 p q
  unfold Cert.Mlp.outAt
  have e1 : ∀ k : Fin 64, lidx_main_v11 (ix2 p q) k = ix2 p k := fun k => funext fun a => Fin.ext (by
    match a with
    | ⟨0, _⟩ => rfl
    | ⟨1, _⟩ => rfl)
  have e2 : ∀ k : Fin 64, idx_main_v10 (ridx_main_v11 (ix2 p q) k) = ix2 q k := fun k => funext fun a => Fin.ext (by
    match a with
    | ⟨0, _⟩ => rfl
    | ⟨1, _⟩ => rfl)
  have e3 : idx_main_v12 (idx_main_v13 (ix2 p q)) = ix1 q := funext fun a => Fin.ext (by
    match a with
    | ⟨0, _⟩ => rfl)
  simp only [val_main_v10_apply, e1, e2, e3, act_eq]
  rfl

end Cert.ReferenceIdeal.RefValue

end
-- ==== Proof.lean ====
/-
  The certificate of a two-layer network applied row by row: out = leaky(x · W1ᵀ + b1) · W2ᵀ + b2 over 2097152 rows.

  The kernel streams x through a one-axis grid of 128 row blocks and keeps the two transposed weight matrices and the
  two bias rows resident; its input is narrowed to bf16 and its output stored as bf16, both of which are the identity
  on the extended reals. The reference is the same formula on the host. On the extended reals both results are, at
  (p, q), (Σ k, leaky((Σ k', x[p,k']·W1[k,k']) + b1[k]) · W2[q,k]) + b2[q]: the two sums are sums over the same finite
  index set and every other operation is the same pointwise one with the same literals, so no finiteness of the inputs
  is used.

  The three frames are the generated ones (the reference's is its run with the result dropped); the idealization
  rewrote nothing, so its conjunct is trivial; the value conjunct pairs the kernel's run, read block by block and
  then as one array, with the reference's run, read one operation at a time.
-/
import proofs.«112732_g54271206752818_cont_9to1_m_1050_22_alg».proof.Defs
import proofs.«112732_g54271206752818_cont_9to1_m_1050_22_alg».proof.Proof.Gen.Kernel
import proofs.«112732_g54271206752818_cont_9to1_m_1050_22_alg».proof.Proof.Gen.Kernel.Skeleton
import proofs.«112732_g54271206752818_cont_9to1_m_1050_22_alg».proof.Proof.Gen.Kernel.Launch
import proofs.«112732_g54271206752818_cont_9to1_m_1050_22_alg».proof.Proof.Gen.Kernel.Points
import proofs.«112732_g54271206752818_cont_9to1_m_1050_22_alg».proof.Proof.Gen.Kernel.Frame
import proofs.«112732_g54271206752818_cont_9to1_m_1050_22_alg».proof.Proof.Gen.KernelIdeal
import proofs.«112732_g54271206752818_cont_9to1_m_1050_22_alg».proof.Proof.Gen.KernelIdeal.Skeleton
import proofs.«112732_g54271206752818_cont_9to1_m_1050_22_alg».proof.Proof.Gen.KernelIdeal.Launch
import proofs.«112732_g54271206752818_cont_9to1_m_1050_22_alg».proof.Proof.Gen.KernelIdeal.Points
import proofs.«112732_g54271206752818_cont_9to1_m_1050_22_alg».proof.Proof.Gen.KernelIdeal.Frame
import proofs.«112732_g54271206752818_cont_9to1_m_1050_22_alg».proof.Proof.Gen.ReferenceIdeal
import proofs.«112732_g54271206752818_cont_9to1_m_1050_22_alg».proof.Proof.Gen.Pre_finite_inputs
import proofs.«112732_g54271206752818_cont_9to1_m_1050_22_alg».proof.Proof.Gen.ReferenceIdeal.Run
import proofs.«112732_g54271206752818_cont_9to1_m_1050_22_alg».proof.Proof.Gen.ReferenceIdeal.Read
import proofs.«112732_g54271206752818_cont_9to1_m_1050_22_alg».proof.Proof.KernelValue
import proofs.«112732_g54271206752818_cont_9to1_m_1050_22_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification of the (agreeing) argument arrays in their result. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
